-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S512x64 : Shape := ⟨2, ![512, 64]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S131072x64 .f32) (main_arg1 : FVec F S512x64 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S131072x64 : Shape := ⟨2, ![131072, 64]⟩
abbrev S512x64 : Shape := ⟨2, ![512, 64]⟩
abbrev S131072x512 : Shape := ⟨2, ![131072, 512]⟩
abbrev S2048x64 : Shape := ⟨2, ![2048, 64]⟩
abbrev S2048x512 : Shape := ⟨2, ![2048, 512]⟩
abbrev S2048 : Shape := ⟨1, ![2048]⟩
abbrev S2048x1 : Shape := ⟨2, ![2048, 1]⟩
abbrev S512 : Shape := ⟨1, ![512]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S131072x512, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S2048x512, .f32⟩
  | .local _ .vmem, ⟨4, _⟩ => ⟨S2048x512, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x64_S2048x64_0_0 : ∀ a, (![0, 0] : Fin 2 → Nat) a + S2048x64.size a ≤ S2048x64.size a
  h_S2048x64 : 0 < S2048x64.numel
  inb_S512x64_S512x64_0_0 : ∀ a, (![0, 0] : Fin 2 → Nat) a + S512x64.size a ≤ S512x64.size a
  h_S512x64 : 0 < S512x64.numel
  reduces_S2048x64_S2048 : S2048x64.Reduces [1] S2048
  shapeCasts_S2048_S2048x1 : S2048.ShapeCasts S2048x1
  reduces_S512x64_S512 : S512x64.Reduces [1] S512
  bitsLt_bf16_f32 : FTy.bits .bf16 < FTy.bits .f32
  shapeCasts_S512_S1x512 : S512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x64_S512x64_S2048x512_1_1_0_0_n_n_wf : DotDims.WF S2048x64 S512x64 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S131072x512.size a
  hwx0_2 : ∀ i : grid0.Coords, EltTy.bits .f32 = 32 ∨ (Rect.block (s := S131072x512) S2048x512.size (cc0_transform_2 i) (hinb0_2 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x64 : Shape := ⟨2, ![131072, 64]⟩
abbrev S512x64 : Shape := ⟨2, ![512, 64]⟩
abbrev S_ : Shape := ⟨0, ![]⟩
abbrev S131072 : Shape := ⟨1, ![131072]⟩
abbrev S131072x1 : Shape := ⟨2, ![131072, 1]⟩
abbrev S512 : Shape := ⟨1, ![512]⟩
abbrev S131072x512 : Shape := ⟨2, ![131072, 512]⟩
abbrev S1x512 : Shape := ⟨2, ![1, 512]⟩

abbrev nBuf : Space → Nat
  | .hbm => 25
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S131072x64, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S512x64, .f32⟩
  | .hbm, ⟨7, _⟩ => ⟨S_, .f32⟩
  | .hbm, ⟨8, _⟩ => ⟨S512, .f32⟩
  | .hbm, ⟨9, _⟩ => ⟨S131072x512, .f32⟩
  | .hbm, ⟨10, _⟩ => ⟨S1x512, .f32⟩
  | .hbm, ⟨11, _⟩ => ⟨S131072x512, .f32⟩
  | .hbm, ⟨12, _⟩ => ⟨S131072x512, .f32⟩
  | .hbm, ⟨13, _⟩ => ⟨S131072x512, .f32⟩
  | .hbm, ⟨14, _⟩ => ⟨S_, .f32⟩
  | .hbm, ⟨15, _⟩ => ⟨S131072x512, .f32⟩
  | .hbm, ⟨16, _⟩ => ⟨S131072x512, .f32⟩
  | .hbm, ⟨17, _⟩ => ⟨S131072x512, .f32⟩
  | .hbm, ⟨18, _⟩ => ⟨S_, .f32⟩
  | .hbm, ⟨19, _⟩ => ⟨S131072x512, .f32⟩
  | .hbm, ⟨20, _⟩ => ⟨S131072x512, .f32⟩
  | .hbm, ⟨21, _⟩ => ⟨S_, .f32⟩
  | .hbm, ⟨22, _⟩ => ⟨S131072x512, .f32⟩
  | .hbm, ⟨23, _⟩ => ⟨S131072x512, .f32⟩
  | .hbm, ⟨24, _⟩ => ⟨S131072x512, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  dot_S131072x64_S512x64_S131072x512_1_1_0_0_n_n_wf : DotDims.WF S131072x64 S512x64 S131072x512 [1] [1] [0] [0] [] []

variable [Facts₀]

def dot_S131072x64_S512x64_S131072x512_1_1_0_0_n_n : DotDims S131072x64 S512x64 S131072x512 where
  lhsContracting := [1]
  rhsContracting := [1]
  lhsNonContracting := [0]
  rhsNonContracting := [0]
  lhsBatch := []
  rhsBatch := []
  wf := dot_S131072x64_S512x64_S131072x512_1_1_0_0_n_n_wf

class Facts : Prop extends Facts₀ where

variable [Facts]
-- ==== Proof.Gaussian.lean ====
/-
  The Gaussian similarity of every row of `x` to every row of `p`, over the extended reals: with
  `|x_r|² = Σ_k x[r,k]²`, `|p_j|² = Σ_k p[j,k]²` and `x_r · p_j = Σ_k x[r,k] · p[j,k]` (all sums over the 64 features),
  the entry at `(r, j)` is `exp (−1 · max (|x_r|² + |p_j|² − 2 · (x_r · p_j)) 0)`: the squared distance written through the
  product, floored at zero, negated and exponentiated. The two scalars `−1` and `2` are kept as the binary words both
  programs carry; only the zero is read as the number `0`.
-/
import Idealize.ShloMosaic.PureOps.Ideal
import Idealize.ShloMosaic.Lib.ValueIdx

noncomputable section

namespace Cert.Gaussian

open Idealize.ShloMosaic Idealize.ShloMosaic.ValueIdx

/-- The squared length of row `r` of an array with 64 columns. -/
def rowSq {n : ℕ} (a : FVec Ideal ⟨2, ![n, 64]⟩ .f32) (r : Fin n) : EReal :=
  ∑ k : Fin 64, a (ix2 r k) * a (ix2 r k)

/-- The inner product of row `r` of one array with row `j` of another, both with 64 columns. -/
def rowDot {n m : ℕ} (a : FVec Ideal ⟨2, ![n, 64]⟩ .f32) (b : FVec Ideal ⟨2, ![m, 64]⟩ .f32) (r : Fin n) (j : Fin m) : EReal :=
  ∑ k : Fin 64, a (ix2 r k) * b (ix2 j k)

/-- One entry from the two squared lengths and the inner product. -/
def entry (sx sp cr : EReal) : EReal :=
  Ideal.exp (Ideal.ofBits .f32 0xBF800000#32 * max (sx + sp - Ideal.ofBits .f32 0x40000000#32 * cr) 0)

/-- The whole `[n, m]` array of similarities between the rows of `x` and the rows of `p`. -/
def gaussian {n m : ℕ} (x : FVec Ideal ⟨2, ![n, 64]⟩ .f32) (p : FVec Ideal ⟨2, ![m, 64]⟩ .f32) : FVec Ideal ⟨2, ![n, m]⟩ .f32 :=
  fun i => entry (rowSq x (i 0)) (rowSq p (i 1)) (rowDot x p (i 0) (i 1))

/-- At row `r`, column `j`. -/
theorem gaussian_apply {n m : ℕ} (x : FVec Ideal ⟨2, ![n, 64]⟩ .f32) (p : FVec Ideal ⟨2, ![m, 64]⟩ .f32) (r : Fin n) (j : Fin m) :
    gaussian x p (ix2 r j) = entry (rowSq x r) (rowSq p j) (rowDot x p r j) := rfl

end Cert.Gaussian

end
-- ==== Proof.LibBroadcastColumn.lean ====
/-
  A column spread over columns, read at an entry: for any extents `a`, `b` and any element type, an `[a, 1]` array
  broadcast to `[a, b]` holds, at row `p` and column `c`, the column's entry `p`. (The row form, `[1, b]` to
  `[a, b]`, is the library's `broadcastTo_1b_ab_apply`.)
-/
import Idealize.ShloMosaic.Lib.ValueIdx
import Idealize.ShloMosaic.Lib.Pipeline.Value

namespace Cert.LibBroadcastColumn

open Idealize.ShloMosaic Idealize.ShloMosaic.ValueIdx

/-- An `[a, 1]` column broadcast to `[a, b]` reads, at `(p, c)`, the column's entry `p`: the broadcast keeps an
    operand axis of extent one at coordinate 0 and every other axis at the result's coordinate, and when `a` itself is
    one the only row index is 0 either way. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibBroadcastColumn
-- ==== Proof.LibKeepdimsColumn.lean ====
/-
  A vector stood up as a column, read at an entry: for any extent `a` and any element type, an `[a]` array cast to
  `[a, 1]` holds, at row `p` (and the one column), the vector's entry `p`. This is the shape a sum over the last axis
  takes when the summed axis is kept with extent one. (The row form, `[a]` to `[1, a]`, is the library's
  `shapeCast_a_1a_apply`.)
-/
import Idealize.ShloMosaic.Lib.ValueIdx
import Idealize.ShloMosaic.Lib.Pipeline.Value

namespace Cert.LibKeepdimsColumn

open Idealize.ShloMosaic Idealize.ShloMosaic.ValueIdx

/-- An `[a]` vector cast to the column `[a, 1]` reads, at `(p, u)`, the vector's entry `p`: a shape cast keeps the
    row-major position, and in a column the row-major position of `(p, u)` is `p · 1 + u` with `u = 0`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.LibKeepdimsColumn
-- ==== Proof.KernelEntry.lean ====
/-
  The kernel's body, read at one entry of its output block. From a `[2048, 64]` block `x` of rows and the whole `[512, 64]`
  array `p` the body stores `exp (−1 · max (S_x + S_p − 2 · C) 0)`, where at row `r` and column `j` of the block `S_x` is the
  lane sum of `x · x` along the features (stood up as a column, spread over the 512 columns), `S_p` the lane sum of `p · p`
  (laid as a row, spread over the 2048 rows) and `C` the matrix product of the two blocks, contracted over the features of
  both, accumulated into zero. Over the extended reals the narrowing of the product's operands to sixteen bits is the
  identity, a lane sum is the plain sum over the 64 features, and the product into a zero accumulator is the plain sum of
  products: so the entry is the Gaussian similarity's entry for the block's row `r` and `p`'s row `j`.
-/
import proofs.«102170_j65481071403945_1_alg».proof.Proof.Gen.KernelIdeal.Skeleton
import proofs.«102170_j65481071403945_1_alg».proof.Proof.Gaussian
import proofs.«102170_j65481071403945_1_alg».proof.Proof.LibBroadcastColumn
import proofs.«102170_j65481071403945_1_alg».proof.Proof.LibKeepdimsColumn
import Idealize.ShloMosaic.PureOps.Ideal.Laws
import Idealize.ShloMosaic.Lib.ValueIdx
import Idealize.ShloMosaic.Lib.ValueLayout

noncomputable section

namespace Cert.KernelIdeal.Similarity

open Cert.KernelIdeal Cert.KernelIdeal.Gen Idealize.ShloMosaic Idealize.ShloMosaic.ValueIdx Cert.Gaussian

/-! ## The two lane sums, spread -/

/-- A lane sum over the 64 features, stood up as a column and spread over `m` columns, read at `(r, j)`: the sum of
    row `r`. -/
theorem laneSum_column_spread {n m : ℕ} (v : FVec Ideal ⟨2, ![n, 64]⟩ .f32)
    (hr : (⟨2, ![n, 64]⟩ : Shape).Reduces [1] ⟨1, ![n]⟩) (hφ : FKind.Formats .f32)
    (hacc : (0x00000000#32 : BitVec (FTy.bits .f32)) = FKind.add.neutral .f32 hφ)
    (hc : (⟨1, ![n]⟩ : Shape).ShapeCasts ⟨2, ![n, 1]⟩) (hb : (⟨2, ![n, 1]⟩ : Shape).Broadcasts ⟨2, ![n, m]⟩)
    (r : Fin n) (j : Fin m) :
    broadcastTo ⟨2, ![n, m]⟩ (shapeCast ⟨2, ![n, 1]⟩ (multiReduction .add [1] ⟨1, ![n]⟩ v 0x00000000#32 hr hφ hacc) hc) hb (ix2 r j)
      = ∑ k : Fin 64, v (ix2 r k) := by
  refine (Cert.LibBroadcastColumn.broadcastTo_a1_ab_apply _ hb r j).trans ?_
  refine (Cert.LibKeepdimsColumn.shapeCast_a_a1_apply _ hc r 0).trans ?_
  refine (Ideal.multiReduction_add_single v _ hr hφ hacc (ix1 r)).trans ?_
  refine Finset.sum_congr rfl fun k _ => ?_
  exact congrArg v (funext fun a => Fin.ext (by match a with | ⟨0, _⟩ => rfl | ⟨1, _⟩ => rfl))

/-- A lane sum over the 64 features, laid as a row and spread over `n` rows, read at `(r, j)`: the sum of row `j` of
    the summed array. -/
theorem laneSum_row_spread {n m : ℕ} (v : FVec Ideal ⟨2, ![m, 64]⟩ .f32)
    (hr : (⟨2, ![m, 64]⟩ : Shape).Reduces [1] ⟨1, ![m]⟩) (hφ : FKind.Formats .f32)
    (hacc : (0x00000000#32 : BitVec (FTy.bits .f32)) = FKind.add.neutral .f32 hφ)
    (hc : (⟨1, ![m]⟩ : Shape).ShapeCasts ⟨2, ![1, m]⟩) (hb : (⟨2, ![1, m]⟩ : Shape).Broadcasts ⟨2, ![n, m]⟩)
    (r : Fin n) (j : Fin m) :
    broadcastTo ⟨2, ![n, m]⟩ (shapeCast ⟨2, ![1, m]⟩ (multiReduction .add [1] ⟨1, ![m]⟩ v 0x00000000#32 hr hφ hacc) hc) hb (ix2 r j)
      = ∑ k : Fin 64, v (ix2 j k) := by
  refine (broadcastTo_1b_ab_apply _ hb r j).trans ?_
  refine (shapeCast_a_1a_apply _ hc 0 j).trans ?_
  refine (Ideal.multiReduction_add_single v _ hr hφ hacc (ix1 j)).trans ?_
  refine Finset.sum_congr rfl fun k _ => ?_
  exact congrArg v (funext fun a => Fin.ext (by match a with | ⟨0, _⟩ => rfl | ⟨1, _⟩ => rfl))

/-! ## The matrix product, contracted over the features of both operands -/

theorem lhs_axis0 (i : S2048x512.Idx) (q : dot_S2048x64_S512x64_S2048x512_1_1_0_0_n_n.contr.Idx) :
    (dot_S2048x64_S512x64_S2048x512_1_1_0_0_n_n.lhsIdx i q 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem lhs_axis1 (i : S2048x512.Idx) (q : dot_S2048x64_S512x64_S2048x512_1_1_0_0_n_n.contr.Idx) :
    (dot_S2048x64_S512x64_S2048x512_1_1_0_0_n_n.lhsIdx i q 1).val = (q ⟨0, by decide⟩).val :=
  dot_S2048x64_S512x64_S2048x512_1_1_0_0_n_n.lhsIdx_val_of_single rfl i q
theorem rhs_axis0 (i : S2048x512.Idx) (q : dot_S2048x64_S512x64_S2048x512_1_1_0_0_n_n.contr.Idx) :
    (dot_S2048x64_S512x64_S2048x512_1_1_0_0_n_n.rhsIdx i q 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem rhs_axis1 (i : S2048x512.Idx) (q : dot_S2048x64_S512x64_S2048x512_1_1_0_0_n_n.contr.Idx) :
    (dot_S2048x64_S512x64_S2048x512_1_1_0_0_n_n.rhsIdx i q 1).val = (q ⟨0, by decide⟩).val :=
  dot_S2048x64_S512x64_S2048x512_1_1_0_0_n_n.rhsIdx_val_of_single rfl i q

/-- The product into a zero accumulator, at `(r, j)`: the sum over the 64 features of row `r` of the left operand times
    row `j` of the right one (both operands are contracted along their second axis). -/
theorem product_entry (a : FVec Ideal S2048x64 .bf16) (b : FVec Ideal S512x64 .bf16) (r : Fin 2048) (j : Fin 512) :
    matmul dot_S2048x64_S512x64_S2048x512_1_1_0_0_n_n none a b (constant (F := Ideal) S2048x512 .f32 0x00000000#32) (ix2 r j)
      = ∑ k : Fin 64, a (ix2 r k) * b (ix2 j k) := by
  refine (Ideal.matmul_constant_zero_apply dot_S2048x64_S512x64_S2048x512_1_1_0_0_n_n none a b (ix2 r j)).trans ?_
  rw [← Equiv.sum_comp (ValueIdx.contrEquiv1 dot_S2048x64_S512x64_S2048x512_1_1_0_0_n_n 64 rfl rfl).symm]
  refine Finset.sum_congr rfl fun k _ => ?_
  have hk := ValueIdx.contrEquiv1_symm_val dot_S2048x64_S512x64_S2048x512_1_1_0_0_n_n 64 rfl rfl k
  have el : dot_S2048x64_S512x64_S2048x512_1_1_0_0_n_n.lhsIdx (ix2 r j) ((ValueIdx.contrEquiv1 dot_S2048x64_S512x64_S2048x512_1_1_0_0_n_n 64 rfl rfl).symm k) = ix2 r k := funext fun ax => Fin.ext (by
    match ax with
    | ⟨0, _⟩ => exact lhs_axis0 _ _
    | ⟨1, _⟩ => exact (lhs_axis1 _ _).trans hk)
  have er : dot_S2048x64_S512x64_S2048x512_1_1_0_0_n_n.rhsIdx (ix2 r j) ((ValueIdx.contrEquiv1 dot_S2048x64_S512x64_S2048x512_1_1_0_0_n_n 64 rfl rfl).symm k) = ix2 j k := funext fun ax => Fin.ext (by
    match ax with
    | ⟨0, _⟩ => exact rhs_axis0 _ _
    | ⟨1, _⟩ => exact (rhs_axis1 _ _).trans hk)
  rw [el, er]

/-! ## The stored value at an entry -/

/-- What the body stores at `(r, j)` of its output block, from the block `x` of rows and the array `p`: the Gaussian
    similarity's entry for row `r` of `x` and row `j` of `p`. -/
theorem stored_entry (x : Vec Ideal S2048x64 .f32) (p : Vec Ideal S512x64 .f32) (r : Fin 2048) (j : Fin 512) :
    k0_pay1 (F := Ideal) x p (ix2 r j) = entry (rowSq x r) (rowSq p j) (rowDot x p r j) := by
  have hx : broadcastTo S2048x512 (shapeCast S2048x1 (multiReduction .add [1] S2048 (mulf (F := Ideal) x x) 0x00000000#32 reduces_S2048x64_S2048 (.inl rfl) rfl) shapeCasts_S2048_S2048x1) broadcasts_S2048x1_S2048x512 (ix2 r j) = rowSq x r :=
    laneSum_column_spread (mulf (F := Ideal) x x) reduces_S2048x64_S2048 (.inl rfl) rfl shapeCasts_S2048_S2048x1 broadcasts_S2048x1_S2048x512 r j
  have hp : broadcastTo S2048x512 (shapeCast S1x512 (multiReduction .add [1] S512 (mulf (F := Ideal) p p) 0x00000000#32 reduces_S512x64_S512 (.inl rfl) rfl) shapeCasts_S512_S1x512) broadcasts_S1x512_S2048x512 (ix2 r j) = rowSq p j :=
    laneSum_row_spread (mulf (F := Ideal) p p) reduces_S512x64_S512 (.inl rfl) rfl shapeCasts_S512_S1x512 broadcasts_S1x512_S2048x512 r j
  have hc : matmul dot_S2048x64_S512x64_S2048x512_1_1_0_0_n_n none (truncf (F := Ideal) .bf16 x bitsLt_bf16_f32) (truncf (F := Ideal) .bf16 p bitsLt_bf16_f32) (constant (F := Ideal) S2048x512 .f32 0x00000000#32) (ix2 r j) = rowDot x p r j :=
    product_entry _ _ r j
  calc k0_pay1 (F := Ideal) x p (ix2 r j)
      = Ideal.exp (Ideal.ofBits .f32 0xBF800000#32 * max
          (broadcastTo S2048x512 (shapeCast S2048x1 (multiReduction .add [1] S2048 (mulf (F := Ideal) x x) 0x00000000#32 reduces_S2048x64_S2048 (.inl rfl) rfl) shapeCasts_S2048_S2048x1) broadcasts_S2048x1_S2048x512 (ix2 r j)
            + broadcastTo S2048x512 (shapeCast S1x512 (multiReduction .add [1] S512 (mulf (F := Ideal) p p) 0x00000000#32 reduces_S512x64_S512 (.inl rfl) rfl) shapeCasts_S512_S1x512) broadcasts_S1x512_S2048x512 (ix2 r j)
            - Ideal.ofBits .f32 0x40000000#32 * matmul dot_S2048x64_S512x64_S2048x512_1_1_0_0_n_n none (truncf (F := Ideal) .bf16 x bitsLt_bf16_f32) (truncf (F := Ideal) .bf16 p bitsLt_bf16_f32) (constant (F := Ideal) S2048x512 .f32 0x00000000#32) (ix2 r j))
          (Ideal.ofBits .f32 0x00000000#32)) := rfl
    _ = entry (rowSq x r) (rowSq p j) (rowDot x p r j) := by rw [hx, hp, hc, Ideal.ofBits_zero_f32]; rfl

end Cert.KernelIdeal.Similarity

end
-- ==== Proof.KernelArray.lean ====
/-
  From blocks to the array. The grid has 64 points; point `t` is handed rows `2048·t … 2048·t + 2047` of `x` (all 64
  features), the whole of `p`, and writes rows `2048·t … 2048·t + 2047` (all 512 columns) of the result. An entry of the
  Gaussian similarity depends only on one row of `x` and one row of `p`, so what point `t` writes is exactly block `t` of
  the whole array of similarities; the 64 blocks of 2048 rows tile the 131072 rows (row `i` lies in block `i / 2048`), so the
  result array ends holding the Gaussian similarity of the two argument arrays.
-/
import proofs.«102170_j65481071403945_1_alg».proof.Proof.Gen.KernelIdeal.Value
import proofs.«102170_j65481071403945_1_alg».proof.Proof.KernelEntry

noncomputable section

namespace Cert.KernelIdeal.Similarity

open Cert.KernelIdeal Cert.KernelIdeal.Gen Idealize.ShloMosaic Idealize.ShloMosaic.TcCoe Idealize.SL.Sem
open Idealize.ShloMosaic.ValueIdx Cert.Gaussian
open Idealize.ShloMosaic.Pipeline (Dat)

variable (m : (ℓ : Loc nD τ sig) → Buf (Elt Ideal) ℓ) (ρ : Dev nD → PrngReg)

/-- The body's loads and its store start at the origin of their buffers. -/
theorem origin_zero : (![0, 0] : Fin 2 → Nat) = fun _ => 0 := funext fun a => by fin_cases a <;> rfl

/-- Where the blocks sit, decided over the 64 points: point `t` takes block row `t` of `x`, the one block of `p`, and
    writes block row `t` of the result. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block `x` holding the 2048 rows of `X` from row `o` on, and `p` holding `P`: the body's stored value at entry `y` of
    the block is the similarity of `X` and `P` at row `o + y₀`, column `y₁` — the entry reads only row `y₀` of the
    block and row `y₁` of `p`. -/
theorem block_entry (X : FVec Ideal S131072x64 .f32) (P : FVec Ideal S512x64 .f32)
    (x : Vec Ideal S2048x64 .f32) (p : Vec Ideal S512x64 .f32) (o : ℕ)
    (hx : ∀ (a : Fin 2048) (k : Fin 64) (r : Fin 131072), r.val = o + a.val → x (ix2 a k) = X (ix2 r k))
    (hp : ∀ (b : Fin 512) (k : Fin 64), p (ix2 b k) = P (ix2 b k))
    (y : S2048x512.Idx) (i : S131072x512.Idx) (h0 : (i 0).val = o + (y 0).val) (h1 : (i 1).val = (y 1).val) :
    k0_pay1 (F := Ideal) x p y = gaussian (n := 131072) (m := 512) X P i := by
  obtain ⟨a, j, rfl⟩ : ∃ (a : Fin 2048) (j : Fin 512), y = ix2 a j := ⟨y 0, y 1, eq_ix2 y⟩
  obtain ⟨r, j', rfl⟩ : ∃ (r : Fin 131072) (j' : Fin 512), i = ix2 r j' := ⟨i 0, i 1, eq_ix2 i⟩
  have hj : j' = j := Fin.ext h1
  subst hj
  have hr : r.val = o + a.val := h0
  rw [stored_entry, gaussian_apply]
  have e1 : rowSq x a = rowSq X r := by
    unfold rowSq; exact Finset.sum_congr rfl fun k _ => by rw [hx a k r hr]
  have e2 : rowSq p j' = rowSq P j' := by
    unfold rowSq; exact Finset.sum_congr rfl fun k _ => by rw [hp j' k]
  have e3 : rowDot x p a j' = rowDot X P r j' := by
    unfold rowDot; exact Finset.sum_congr rfl fun k _ => by rw [hx a k r hr, hp j' k]
  rw [e1, e2, e3]

/-- WHAT POINT `t` WRITES BACK is block `t` of the similarity of the two argument arrays as the region finds them. -/
theorem written_block (c : Dev nD) (t : Fin cfg0.N) :
    (dats m 0 c).flushed 2 t
      = ((cfg0.win 2).blk t).view.read (Elt Ideal) (gaussian (n := 131072) (m := 512) (V m c main_arg0) (V m c main_arg1)) := by
  rw [Cert.KernelIdeal.Value.flushed2]
  unfold out0_2
  rw [View.canon_unit_zero origin_zero]
  simp only [View.ld_unit_zero (S := S2048x64) origin_zero, View.ld_unit_zero (S := S512x64) origin_zero]
  obtain ⟨e00, e01, e10, e11, e20, e21⟩ := block_indices t
  funext y
  show k0_pay1 (F := Ideal) (iblk m c 0 t) (iblk m c 1 t) y
    = gaussian (n := 131072) (m := 512) (V m c main_arg0) (V m c main_arg1) (((cfg0.win 2).blk t).view.emb y)
  refine block_entry (V m c main_arg0) (V m c main_arg1) (iblk m c 0 t) (iblk m c 1 t) (t.val * 2048) ?_ ?_ y _ ?_ ?_
  · intro a k r hr
    show V m c main_arg0 (((cfg0.win 0).blk t).view.emb (ix2 a k)) = V m c main_arg0 (ix2 r k)
    refine congrArg _ (funext fun ax => Fin.ext ?_)
    match ax with
    | ⟨0, _⟩ => show win0_0.index t (0 : Fin 2) * 2048 + 1 * a.val = r.val; omega
    | ⟨1, _⟩ => show win0_0.index t (1 : Fin 2) * 64 + 1 * k.val = k.val; omega
  · intro b k
    show V m c main_arg1 (((cfg0.win 1).blk t).view.emb (ix2 b k)) = V m c main_arg1 (ix2 b k)
    refine congrArg _ (funext fun ax => Fin.ext ?_)
    match ax with
    | ⟨0, _⟩ => show win0_1.index t (0 : Fin 2) * 512 + 1 * b.val = b.val; omega
    | ⟨1, _⟩ => show win0_1.index t (1 : Fin 2) * 64 + 1 * k.val = k.val; omega
  · show win0_2.index t (0 : Fin 2) * 2048 + 1 * (y 0).val = t.val * 2048 + (y 0).val; omega
  · show win0_2.index t (1 : Fin 2) * 512 + 1 * (y 1).val = (y 1).val; omega

/-- An index of the result array is in point `t`'s block iff each coordinate is in the block's range on its axis. -/
theorem mem_block (t : Fin cfg0.N) (i : S131072x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v0).slice (win0_2.rect t)).set ↔ _
  rw [View.set_slice_whole, Rect.mem_set_unit]
  exact Iff.rfl

/-- The 64 blocks of 2048 rows tile the result: row `i₀` lies in the block of point `i₀ / 2048`. -/
theorem blocks_cover (i : S131072x512.Idx) :
    ∃ t : Fin cfg0.N, (cfg0.win 2).flush t = true ∧ i ∈ ((cfg0.win 2).blk t).view.set := by
  have hi0 : (i 0).val < 131072 := (i 0).isLt
  have hi1 : (i 1).val < 512 := (i 1).isLt
  have hN : cfg0.N = 64 := rfl
  obtain ⟨t, ht⟩ : ∃ t : Fin cfg0.N, t.val = (i 0).val / 2048 := ⟨⟨(i 0).val / 2048, by omega⟩, rfl⟩
  obtain ⟨-, -, -, -, e20, e21⟩ := block_indices t
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- THE RESULT ARRAY after the run: the Gaussian similarity of the two argument arrays. -/
theorem final_array (c : Dev nD) :
    (dats m 0 c).arrAt 2 cfg0.N = gaussian (n := 131072) (m := 512) (V m c main_arg0) (V m c main_arg1) :=
  (dats m 0 c).arrAt_eq_of_cover 2 _ (fun t _ => written_block m c t) blocks_cover

/-- The kernel's run, read: the result array at the similarity of the arguments, the arguments unchanged. -/
theorem run : θ_run defs (onTc (τ := τ) (main (F := Ideal))) ⟨m, fun _ => 0, ρ⟩ fun r => ∀ c : Dev nD,
      r.2.mem ((c : Thread nD τ).loc main_v0)
        = gaussian (n := 131072) (m := 512) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_array m c), (h c).2⟩)
    (Cert.KernelIdeal.Value.run_blocks m ρ)

end Cert.KernelIdeal.Similarity

end
-- ==== Proof.ReferenceEntry.lean ====
/-
  The reference, read at one entry. Its last stage is `exp (−1 · max (S_x + S_p − 2 · C) 0)` where, at row `r` and column `j`,
  `S_x` is the sum of squares of row `r` of `x` (a sum over the features, started from zero, stood up as a column and spread
  over the columns), `S_p` the sum of squares of row `j` of `p` (laid as a row and spread over the rows) and `C` the
  contraction of the two rows over the features. Reading the stages one after the other at `(r, j)` gives the Gaussian
  similarity's entry; the only arithmetic used is `0 + s = s` for the two sums' starting value.
-/
import proofs.«102170_j65481071403945_1_alg».proof.Proof.Gen.ReferenceIdeal.Read
import proofs.«102170_j65481071403945_1_alg».proof.Proof.Gaussian

noncomputable section

namespace Cert.ReferenceIdeal.Similarity

open Cert.ReferenceIdeal Cert.ReferenceIdeal.Read Idealize.ShloMosaic Idealize.ShloMosaic.ValueIdx Cert.Gaussian

variable (x : (⟨S131072x64, .f32⟩ : BufTy).Contents (Elt Ideal)) (p : (⟨S512x64, .f32⟩ : BufTy).Contents (Elt Ideal))

/-- Row `r`'s sum of squares, as the reference spreads it over the columns. -/
theorem rowSq_x (r : Fin 131072) (j : Fin 512) : val_main_v7 (F := Ideal) x (ix2 r j) = rowSq x r := by
  rw [val_main_v7_apply, val_main_v2_apply, val_main_v1_apply, val_main_cst_apply, Ideal.ofBits_def, Ideal.ofBits_zero_f32, zero_add]
  refine Finset.sum_congr rfl fun k _ => ?_
  rw [val_main_v0_apply]
  have e : idx_main_v1 (idx_main_v2 (idx_main_v7 (ix2 r j))) k = ix2 r k :=
    funext fun a => Fin.ext (by match a with | ⟨0, _⟩ => rfl | ⟨1, _⟩ => rfl)
  rw [e]; rfl

/-- Row `j` of `p`'s sum of squares, as the reference spreads it over the rows. -/
theorem rowSq_p (r : Fin 131072) (j : Fin 512) : val_main_v8 (F := Ideal) p (ix2 r j) = rowSq p j := by
  rw [val_main_v8_apply, val_main_v6_apply, val_main_v4_apply, val_main_cst_0_apply, Ideal.ofBits_def, Ideal.ofBits_zero_f32, zero_add]
  refine Finset.sum_congr rfl fun k _ => ?_
  rw [val_main_v3_apply]
  have e : idx_main_v4 (idx_main_v6 (idx_main_v8 (ix2 r j))) k = ix2 j k :=
    funext fun a => Fin.ext (by match a with | ⟨0, _⟩ => rfl | ⟨1, _⟩ => rfl)
  rw [e]; rfl

/-- The contraction of row `r` of `x` with row `j` of `p`. -/
theorem rowDot_xp (r : Fin 131072) (j : Fin 512) : val_main_v5 (F := Ideal) x p (ix2 r j) = rowDot x p r j := by
  rw [val_main_v5_apply]
  refine Finset.sum_congr rfl fun k _ => ?_
  have el : lidx_main_v5 (ix2 r j) k = ix2 r k :=
    funext fun a => Fin.ext (by match a with | ⟨0, _⟩ => rfl | ⟨1, _⟩ => rfl)
  have er : ridx_main_v5 (ix2 r j) k = ix2 j k :=
    funext fun a => Fin.ext (by match a with | ⟨0, _⟩ => rfl | ⟨1, _⟩ => rfl)
  rw [el, er]

/-- The reference's result at `(r, j)` is the Gaussian similarity's entry. -/
theorem result_entry (r : Fin 131072) (j : Fin 512) : val_main_v17 (F := Ideal) x p (ix2 r j) = gaussian x p (ix2 r j) := by
  rw [gaussian_apply, val_main_v17_apply, val_main_v16_apply, val_main_v15_apply, val_main_cst_3_apply, val_main_v14_apply,
    val_main_v13_apply, val_main_cst_2_apply, val_main_v12_apply, val_main_v11_apply, val_main_v10_apply, val_main_cst_1_apply,
    val_main_v9_apply, rowSq_x, rowSq_p, rowDot_xp]
  simp only [Ideal.hostUnary_exp_def, Ideal.mulf_def, Ideal.maximumf_def, Ideal.subf_def, Ideal.addf_def, Ideal.ofBits_def,
    Ideal.ofBits_zero_f32]
  rfl

/-- So the reference's result array is the Gaussian similarity of the two arguments. -/
theorem result_eq : val_main_v17 (F := Ideal) x p = gaussian x p := by
  funext i
  obtain ⟨r, j, rfl⟩ : ∃ (r : Fin 131072) (j : Fin 512), i = ix2 r j := ⟨i 0, i 1, eq_ix2 i⟩
  exact result_entry x p r j

end Cert.ReferenceIdeal.Similarity

end
-- ==== Proof.lean ====
/-
  A Gaussian similarity table: for `x` of 131072 rows and `p` of 512 rows, both with 64 features, the result's entry at
  `(r, j)` is `exp (−max (|x_r|² + |p_j|² − 2 · (x_r · p_j)) 0)`, the squared distance between row `r` of `x` and row `j` of
  `p` written through their inner product, floored at zero.

  The kernel walks the rows of `x` in 64 blocks of 2048, keeps `p` whole, and per block takes the two lane sums of squares,
  one matrix product of the block with `p` (contracted over the features, its operands narrowed to sixteen bits) and the
  pointwise tail. The reference does the same on the whole arrays: two sums over the features, one contraction, the same
  pointwise tail with the same three constants. Over the extended reals narrowing is the identity, a lane sum and the
  host's sum from zero are both the plain sum over the features, and the product into a zero accumulator and the host's
  contraction are both the plain sum of products; so both programs compute one function, entry by entry, with no law of
  arithmetic beyond `0 + s = s`, and in particular without using that the inputs are finite.

  `Gaussian` states the function; `KernelEntry` reads the kernel's stored value at an entry of a block, `KernelArray` tiles
  the blocks into the result array; `ReferenceEntry` reads the reference's stages at an entry. The three frames are the
  generated ones (the reference's is its run with the result dropped), and the idealization rewrote nothing.
-/
import proofs.«102170_j65481071403945_1_alg».proof.Defs
import proofs.«102170_j65481071403945_1_alg».proof.Proof.Gen.Kernel
import proofs.«102170_j65481071403945_1_alg».proof.Proof.Gen.Kernel.Skeleton
import proofs.«102170_j65481071403945_1_alg».proof.Proof.Gen.Kernel.Launch
import proofs.«102170_j65481071403945_1_alg».proof.Proof.Gen.Kernel.Points
import proofs.«102170_j65481071403945_1_alg».proof.Proof.Gen.Kernel.Frame
import proofs.«102170_j65481071403945_1_alg».proof.Proof.Gen.KernelIdeal
import proofs.«102170_j65481071403945_1_alg».proof.Proof.Gen.KernelIdeal.Skeleton
import proofs.«102170_j65481071403945_1_alg».proof.Proof.Gen.KernelIdeal.Launch
import proofs.«102170_j65481071403945_1_alg».proof.Proof.Gen.KernelIdeal.Points
import proofs.«102170_j65481071403945_1_alg».proof.Proof.Gen.KernelIdeal.Frame
import proofs.«102170_j65481071403945_1_alg».proof.Proof.Gen.ReferenceIdeal
import proofs.«102170_j65481071403945_1_alg».proof.Proof.Gen.Pre_finite_inputs
import proofs.«102170_j65481071403945_1_alg».proof.Proof.Gen.KernelIdeal.Value
import proofs.«102170_j65481071403945_1_alg».proof.Proof.Gen.ReferenceIdeal.Run
import proofs.«102170_j65481071403945_1_alg».proof.Proof.Gen.ReferenceIdeal.Read
import proofs.«102170_j65481071403945_1_alg».proof.Proof.KernelArray
import proofs.«102170_j65481071403945_1_alg».proof.Proof.ReferenceEntry
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on `x` and `p`, both programs end with the Gaussian similarity table of `x` and `p`: the
    kernel's result array block by block (`KernelArray`), the reference's last stage entry by entry (`ReferenceEntry`). -/
theorem algebraic : Cert.algebraic_KernelIdeal_ReferenceIdeal := by
  intro m ρ m' ρ' _ hagree
  refine ⟨fun c => Cert.Gaussian.gaussian (n := 131072) (m := 512)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Similarity.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Similarity.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
